-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩
abbrev S102400 : Shape := ⟨1, ![102400]⟩
abbrev S1x102400 : Shape := ⟨2, ![1, 102400]⟩
abbrev S128x1 : Shape := ⟨2, ![128, 1]⟩
abbrev S5x128 : Shape := ⟨2, ![5, 128]⟩
abbrev S5x1 : Shape := ⟨2, ![5, 1]⟩
abbrev S5x102400 : Shape := ⟨2, ![5, 102400]⟩
abbrev S1x4096 : Shape := ⟨2, ![1, 4096]⟩
abbrev S5x4096 : Shape := ⟨2, ![5, 4096]⟩
abbrev S128x4096 : Shape := ⟨2, ![128, 4096]⟩
abbrev S5x100000 : Shape := ⟨2, ![5, 100000]⟩
abbrev S100000x5 : Shape := ⟨2, ![100000, 5]⟩

abbrev nBuf : Space → Nat
  | .hbm => 20
  | .vmem => 10
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S_, .i32⟩
  | .hbm, ⟨8, _⟩ => ⟨S_, .f32⟩
  | .hbm, ⟨9, _⟩ => ⟨S102400, .f32⟩
  | .hbm, ⟨10, _⟩ => ⟨S1x102400, .f32⟩
  | .hbm, ⟨11, _⟩ => ⟨S128x1, .f32⟩
  | .hbm, ⟨12, _⟩ => ⟨S128x1, .f32⟩
  | .hbm, ⟨13, _⟩ => ⟨S128x128, .f32⟩
  | .hbm, ⟨14, _⟩ => ⟨S128x1, .f32⟩
  | .hbm, ⟨15, _⟩ => ⟨S5x128, .f32⟩
  | .hbm, ⟨16, _⟩ => ⟨S5x1, .f32⟩
  | .hbm, ⟨17, _⟩ => ⟨S5x102400, .f32⟩
  | .hbm, ⟨18, _⟩ => ⟨S5x100000, .f32⟩
  | .hbm, ⟨19, _⟩ => ⟨S100000x5, .f32⟩
  | .local _ .vmem, ⟨0, _⟩ => ⟨S1x4096, .f32⟩
  | .local _ .vmem, ⟨1, _⟩ => ⟨S1x4096, .f32⟩
  | .local _ .vmem, ⟨2, _⟩ => ⟨S128x1, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S5x128, .f32⟩
  | .local _ .vmem, ⟨7, _⟩ => ⟨S5x1, .f32⟩
  | .local _ .vmem, ⟨8, _⟩ => ⟨S5x4096, .f32⟩
  | .local _ .vmem, ⟨9, _⟩ => ⟨S5x4096, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S100000_S102400_024000 : S100000.Pads (![0] : Fin 1 → Nat) ![2400] ![0] S102400
  h_S_ : 0 < S_.numel
  shapeCasts_S102400_S1x102400 : S102400.ShapeCasts S1x102400
  shapeCasts_S1x128_S128x1 : S1x128.ShapeCasts S128x1
  shapeCasts_S128_S128x1 : S128.ShapeCasts S128x1
  transposes_S128x128_S128x128_1_0 : S128x128.Transposes [1, 0] S128x128
  transposes_S128x5_S5x128_1_0 : S128x5.Transposes [1, 0] S5x128
  shapeCasts_S5_S5x1 : S5.ShapeCasts S5x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  broadcasts_S1x4096_S128x4096 : S1x4096.Broadcasts S128x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x4096 : S5x1.Broadcasts S5x4096
  inb_S5x4096_S5x4096_0_0 : ∀ a, (![0, 0] : Fin 2 → Nat) a + S5x4096.size a ≤ S5x4096.size a
  h_S5x4096 : 0 < S5x4096.numel
  slices_S5x102400_S5x100000_0_0 : S5x102400.Slices ![0, 0] S5x100000
  transposes_S5x100000_S100000x5_1_0 : S5x100000.Transposes [1, 0] S100000x5
  dot_S128x128_S128x4096_S128x4096_1_0_0_1_n_n_wf : DotDims.WF S128x128 S128x4096 S128x4096 [1] [0] [0] [1] [] []
  dot_S5x128_S128x4096_S5x4096_1_0_0_1_n_n_wf : DotDims.WF S5x128 S128x4096 S5x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x102400.size a
  hwx0_0 : ∀ i : grid0.Coords, EltTy.bits .f32 = 32 ∨ (Rect.block (s := S1x102400) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1.size a ≤ S5x1.size a
  hwx0_6 : ∀ i : grid0.Coords, EltTy.bits .f32 = 32 ∨ (Rect.block (s := S5x1) S5x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5x4096.size a ≤ S5x102400.size a
  hwx0_7 : ∀ i : grid0.Coords, EltTy.bits .f32 = 32 ∨ (Rect.block (s := S5x102400) S5x4096.size (cc0_transform_7 i) (hinb0_7 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S5x128_S128x4096_S5x4096_1_0_0_1_n_n : DotDims S5x128 S128x4096 S5x4096 where
  lhsContracting := [1]
  rhsContracting := [0]
  lhsNonContracting := [0]
  rhsNonContracting := [1]
  lhsBatch := []
  rhsBatch := []
  wf := dot_S5x128_S128x4096_S5x4096_1_0_0_1_n_n_wf

abbrev win0_0 : Pipeline.Window sig grid0 :=
  Pipeline.Window.ofSpec (Memref.whole main_v1) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S5x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S5x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S100000x1 : Shape := ⟨2, ![100000, 1]⟩
abbrev S100000x128 : Shape := ⟨2, ![100000, 128]⟩
abbrev S_ : Shape := ⟨0, ![]⟩
abbrev S100000x5 : Shape := ⟨2, ![100000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S100000x1, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x5, .f32⟩
  | .hbm, ⟨23, _⟩ => ⟨S1x5, .f32⟩
  | .hbm, ⟨24, _⟩ => ⟨S100000x5, .f32⟩
  | .hbm, ⟨25, _⟩ => ⟨S100000x5, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.Payload.lean ====
/-
  What one grid step of the kernel stores, read at one entry.

  The body holds a row of 4096 points `v0`, the first layer's weights and biases as columns `v2`, `v7`, the second
  layer's weight matrix `v13` with its outputs along the rows, its bias column `v16`, the read-out matrix `v22`
  with its outputs along the rows and its bias column `v25`. Entry `(e, q)` of what it stores is the read-out's
  component `e` at the point in lane `q`: two matrix products, each a sum over the 128 units of the layer below,
  a bias column stretched along the lanes after each, and `max · 0` after the first two.
-/
import proofs.«173750_g64828236366229_cont_9to1_m_1379_5_alg».proof.Proof.Gen.KernelIdeal.Skeleton
import proofs.«173750_g64828236366229_cont_9to1_m_1379_5_alg».proof.Proof.LibColumn
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Point

open Cert.KernelIdeal Cert.KernelIdeal.Gen Idealize.ShloMosaic Idealize.ShloMosaic.ValueIdx Cert.LibColumn

/-! ## The two matrix products at an entry

Both contract the left operand's columns with the right operand's rows; the coordinates of the operands' indices are
read off the dimension numbers axis by axis. -/

theorem lhs_hid_0 (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide), dif_pos (show (0 : Fin S128x128.rank) ∈ dot_S128x128_S128x4096_S128x4096_1_0_0_1_n_n.lhsNonContracting by decide)]
  rfl
theorem lhs_hid_1 (i : S128x4096.Idx) (q : dot_S128x128_S128x4096_S128x4096_1_0_0_1_n_n.contr.Idx) :
    (dot_S128x128_S128x4096_S128x4096_1_0_0_1_n_n.lhsIdx i q 1).val = (q ⟨0, by decide⟩).val :=
  dot_S128x128_S128x4096_S128x4096_1_0_0_1_n_n.lhsIdx_val_of_single rfl i q
theorem rhs_hid_0 (i : S128x4096.Idx) (q : dot_S128x128_S128x4096_S128x4096_1_0_0_1_n_n.contr.Idx) :
    (dot_S128x128_S128x4096_S128x4096_1_0_0_1_n_n.rhsIdx i q 0).val = (q ⟨0, by decide⟩).val :=
  dot_S128x128_S128x4096_S128x4096_1_0_0_1_n_n.rhsIdx_val_of_single rfl i q
theorem rhs_hid_1 (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide), dif_pos (show (1 : Fin S128x4096.rank) ∈ dot_S128x128_S128x4096_S128x4096_1_0_0_1_n_n.rhsNonContracting by decide)]
  rfl

theorem lhs_out_0 (i : S5x4096.Idx) (q : dot_S5x128_S128x4096_S5x4096_1_0_0_1_n_n.contr.Idx) :
    (dot_S5x128_S128x4096_S5x4096_1_0_0_1_n_n.lhsIdx i q 0).val = (i 0).val := by
  unfold DotDims.lhsIdx
  rw [dif_neg (show ¬(0 : Fin S5x128.rank) ∈ dot_S5x128_S128x4096_S5x4096_1_0_0_1_n_n.lhsBatch by decide), dif_pos (show (0 : Fin S5x128.rank) ∈ dot_S5x128_S128x4096_S5x4096_1_0_0_1_n_n.lhsNonContracting by decide)]
  rfl
theorem lhs_out_1 (i : S5x4096.Idx) (q : dot_S5x128_S128x4096_S5x4096_1_0_0_1_n_n.contr.Idx) :
    (dot_S5x128_S128x4096_S5x4096_1_0_0_1_n_n.lhsIdx i q 1).val = (q ⟨0, by decide⟩).val :=
  dot_S5x128_S128x4096_S5x4096_1_0_0_1_n_n.lhsIdx_val_of_single rfl i q
theorem rhs_out_0 (i : S5x4096.Idx) (q : dot_S5x128_S128x4096_S5x4096_1_0_0_1_n_n.contr.Idx) :
    (dot_S5x128_S128x4096_S5x4096_1_0_0_1_n_n.rhsIdx i q 0).val = (q ⟨0, by decide⟩).val :=
  dot_S5x128_S128x4096_S5x4096_1_0_0_1_n_n.rhsIdx_val_of_single rfl i q
theorem rhs_out_1 (i : S5x4096.Idx) (q : dot_S5x128_S128x4096_S5x4096_1_0_0_1_n_n.contr.Idx) :
    (dot_S5x128_S128x4096_S5x4096_1_0_0_1_n_n.rhsIdx i q 1).val = (i 1).val := by
  unfold DotDims.rhsIdx
  rw [dif_neg (show ¬(1 : Fin S128x4096.rank) ∈ dot_S5x128_S128x4096_S5x4096_1_0_0_1_n_n.rhsBatch by decide), dif_pos (show (1 : Fin S128x4096.rank) ∈ dot_S5x128_S128x4096_S5x4096_1_0_0_1_n_n.rhsNonContracting by decide)]
  rfl

/-- The hidden layer's product into a zero accumulator: entry `(j, q)` is the sum over `k` of `a[j, k] · b[k, q]`. -/
theorem hid_apply (a : FVec Ideal S128x128 .f32) (b : FVec Ideal S128x4096 .f32) (j : Fin 128) (q : Fin 4096) :
    matmul dot_S128x128_S128x4096_S128x4096_1_0_0_1_n_n none a b (constant (F := Ideal) S128x4096 .f32 0x00000000#32) (ix2 j q)
      = ∑ k : Fin 128, a (ix2 j k) * b (ix2 k q) := by
  simp only [matmul]
  rw [Ideal.matmul_constant_zero_apply, ← Equiv.sum_comp (contrEquiv1 dot_S128x128_S128x4096_S128x4096_1_0_0_1_n_n 128 rfl rfl).symm]
  refine Finset.sum_congr rfl fun k _ => ?_
  have hk := contrEquiv1_symm_val dot_S128x128_S128x4096_S128x4096_1_0_0_1_n_n 128 rfl rfl k
  have el : dot_S128x128_S128x4096_S128x4096_1_0_0_1_n_n.lhsIdx (ix2 j q) ((contrEquiv1 dot_S128x128_S128x4096_S128x4096_1_0_0_1_n_n 128 rfl rfl).symm k) = ix2 j k := funext fun ax => Fin.ext (by
    match ax with
    | ⟨0, _⟩ => exact lhs_hid_0 _ _
    | ⟨1, _⟩ => exact (lhs_hid_1 _ _).trans hk)
  have er : dot_S128x128_S128x4096_S128x4096_1_0_0_1_n_n.rhsIdx (ix2 j q) ((contrEquiv1 dot_S128x128_S128x4096_S128x4096_1_0_0_1_n_n 128 rfl rfl).symm k) = ix2 k q := funext fun ax => Fin.ext (by
    match ax with
    | ⟨0, _⟩ => exact (rhs_hid_0 _ _).trans hk
    | ⟨1, _⟩ => exact rhs_hid_1 _ _)
  rw [el, er]

/-- The read-out's product into a zero accumulator: entry `(e, q)` is the sum over `k` of `a[e, k] · b[k, q]`. -/
theorem out_apply (a : FVec Ideal S5x128 .f32) (b : FVec Ideal S128x4096 .f32) (j : Fin 5) (q : Fin 4096) :
    matmul dot_S5x128_S128x4096_S5x4096_1_0_0_1_n_n none a b (constant (F := Ideal) S5x4096 .f32 0x00000000#32) (ix2 j q)
      = ∑ k : Fin 128, a (ix2 j k) * b (ix2 k q) := by
  simp only [matmul]
  rw [Ideal.matmul_constant_zero_apply, ← Equiv.sum_comp (contrEquiv1 dot_S5x128_S128x4096_S5x4096_1_0_0_1_n_n 128 rfl rfl).symm]
  refine Finset.sum_congr rfl fun k _ => ?_
  have hk := contrEquiv1_symm_val dot_S5x128_S128x4096_S5x4096_1_0_0_1_n_n 128 rfl rfl k
  have el : dot_S5x128_S128x4096_S5x4096_1_0_0_1_n_n.lhsIdx (ix2 j q) ((contrEquiv1 dot_S5x128_S128x4096_S5x4096_1_0_0_1_n_n 128 rfl rfl).symm k) = ix2 j k := funext fun ax => Fin.ext (by
    match ax with
    | ⟨0, _⟩ => exact lhs_out_0 _ _
    | ⟨1, _⟩ => exact (lhs_out_1 _ _).trans hk)
  have er : dot_S5x128_S128x4096_S5x4096_1_0_0_1_n_n.rhsIdx (ix2 j q) ((contrEquiv1 dot_S5x128_S128x4096_S5x4096_1_0_0_1_n_n 128 rfl rfl).symm k) = ix2 k q := funext fun ax => Fin.ext (by
    match ax with
    | ⟨0, _⟩ => exact (rhs_out_0 _ _).trans hk
    | ⟨1, _⟩ => exact rhs_out_1 _ _)
  rw [el, er]

/-! ## The stored value at an entry -/

/-- Entry `(e, q)` of the stored block, from the loaded blocks. -/
theorem pay_apply (v0 : Vec Ideal S1x4096 .f32) (v2 v7 : Vec Ideal S128x1 .f32) (v13 : Vec Ideal S128x128 .f32)
    (v16 : Vec Ideal S128x1 .f32) (v22 : Vec Ideal S5x128 .f32) (v25 : Vec Ideal S5x1 .f32) (e : Fin 5) (q : Fin 4096) :
    k0_pay1 (F := Ideal) v0 v2 v7 v13 v16 v22 v25 (ix2 e q)
      = ∑ k : Fin 128, v22 (ix2 e k)
          * max (∑ k' : Fin 128, v13 (ix2 k k')
              * max (v2 (ix2 k' (0 : Fin 1)) * v0 (ix2 (0 : Fin 1) q) + v7 (ix2 k' (0 : Fin 1))) 0
            + v16 (ix2 k (0 : Fin 1))) 0
        + v25 (ix2 e (0 : Fin 1)) := by
  unfold k0_pay1
  simp only [addf_apply, maximumf_apply, mulf_apply, broadcast_apply, out_apply, hid_apply, shapeCast_self,
    broadcastTo_a1_ab_apply, broadcastTo_1b_ab_apply, Ideal.ofBits_def, Ideal.ofBits_zero_f32]

end Cert.KernelIdeal.Point

end
-- ==== Proof.Mlp.lean ====
/-
  The function both programs compute, one input point at a time.

  A point is a single extended real `τ`. The network sends it through two hidden layers of 128 rectified units and
  a linear read-out of 5 numbers:

    hidden1 τ j = max (w1[0, j] · τ + b1[j]) 0
    hidden2 τ j = max (∑ k, w2[k, j] · hidden1 τ k + b2[j]) 0
    output  τ e = ∑ k, w3[k, e] · hidden2 τ k + b3[e]

  Every product is written weight first. Only commutativity of the product on the extended reals is needed to pass
  between this spelling and the one with the activation first, so nothing below asks the weights or the point to be
  finite.
-/
import Idealize.ShloMosaic.PureOps.Ideal
import Idealize.ShloMosaic.Lib.ValueIdx

noncomputable section

namespace Cert.Mlp

open Idealize.ShloMosaic Idealize.ShloMosaic.ValueIdx

variable (w1 : (⟨2, ![1, 128]⟩ : Shape).Idx → EReal) (b1 : (⟨1, ![128]⟩ : Shape).Idx → EReal)
  (w2 : (⟨2, ![128, 128]⟩ : Shape).Idx → EReal) (b2 : (⟨1, ![128]⟩ : Shape).Idx → EReal)
  (w3 : (⟨2, ![128, 5]⟩ : Shape).Idx → EReal) (b3 : (⟨1, ![5]⟩ : Shape).Idx → EReal)

/-- Unit `j` of the first hidden layer at the point `τ`. -/
def hidden1 (τ : EReal) (j : Fin 128) : EReal :=
  max (w1 (ix2 (0 : Fin 1) j) * τ + b1 (ix1 j)) 0

/-- Unit `j` of the second hidden layer at the point `τ`. -/
def hidden2 (τ : EReal) (j : Fin 128) : EReal :=
  max (∑ k : Fin 128, w2 (ix2 k j) * hidden1 w1 b1 τ k + b2 (ix1 j)) 0

/-- Component `e` of the read-out at the point `τ`. -/
def output (τ : EReal) (e : Fin 5) : EReal :=
  ∑ k : Fin 128, w3 (ix2 k e) * hidden2 w1 b1 w2 b2 τ k + b3 (ix1 e)

/-- The first layer with the point written before the weight. -/
theorem hidden1_comm (τ : EReal) (j : Fin 128) :
    max (τ * w1 (ix2 (0 : Fin 1) j) + b1 (ix1 j)) 0 = hidden1 w1 b1 τ j := by
  unfold hidden1; rw [mul_comm]

/-- The second layer with each activation written before its weight. -/
theorem hidden2_comm (τ : EReal) (j : Fin 128) :
    max (∑ k : Fin 128, hidden1 w1 b1 τ k * w2 (ix2 k j) + b2 (ix1 j)) 0 = hidden2 w1 b1 w2 b2 τ j := by
  unfold hidden2
  rw [Finset.sum_congr rfl fun k _ => mul_comm (hidden1 w1 b1 τ k) (w2 (ix2 k j))]

/-- The read-out with each activation written before its weight. -/
theorem output_comm (τ : EReal) (e : Fin 5) :
    ∑ k : Fin 128, hidden2 w1 b1 w2 b2 τ k * w3 (ix2 k e) + b3 (ix1 e) = output w1 b1 w2 b2 w3 b3 τ e := by
  unfold output
  rw [Finset.sum_congr rfl fun k _ => mul_comm (hidden2 w1 b1 w2 b2 τ k) (w3 (ix2 k e))]

end Cert.Mlp

end
-- ==== Proof.KernelValue.lean ====
/-
  What the kernel program leaves in its result array, entry by entry: the network of `Mlp.lean` at that entry's point.

  The program pads the 100000 points with zeros to 102400 and lays them out as one row; stands the first layer's
  weights and every bias up as columns; transposes the two weight matrices. The kernel then runs over 25 steps of
  4096 lanes. Step `t` reads lanes `4096·t … 4096·t + 4095` of the row and the whole of every weight array, and
  writes the 5 × 4096 block of read-outs for those lanes (`Payload.lean`). The 25 blocks tile the 5 × 102400
  output, so entry `(e, p)` of it is the read-out's component `e` at the padded row's lane `p`. Finally the
  program keeps lanes `0 … 99999` and transposes: entry `(n, e)` of the result is the read-out's component `e` at
  point `n`, the padding never read.
-/
import proofs.«173750_g64828236366229_cont_9to1_m_1379_5_alg».proof.Proof.Gen.KernelIdeal.Frame
import proofs.«173750_g64828236366229_cont_9to1_m_1379_5_alg».proof.Proof.Payload
import proofs.«173750_g64828236366229_cont_9to1_m_1379_5_alg».proof.Proof.Mlp
import Idealize.ShloMosaic.Lib.Pipeline.Value
import Idealize.ShloMosaic.Lib.StableHlo.Run
import Idealize.ShloMosaic.Lib.ValueLayout
import Idealize.ShloMosaic.Lib.KernelVsHost

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Cert.LibColumn
open Idealize.ShloMosaic.Pipeline (Dat)

variable (m : (ℓ : Loc nD τ sig) → Buf (Elt Ideal) ℓ) (ρ : Dev nD → PrngReg)

/-! ## The arguments, and the arrays the kernel's windows read

Each is named at its literal shape. -/

abbrev targ (c : Dev nD) : Vec Ideal S100000 .f32 := m ((c : Thread nD τ).loc main_arg0)
abbrev w1arg (c : Dev nD) : Vec Ideal S1x128 .f32 := m ((c : Thread nD τ).loc main_arg1)
abbrev b1arg (c : Dev nD) : Vec Ideal S128 .f32 := m ((c : Thread nD τ).loc main_arg2)
abbrev w2arg (c : Dev nD) : Vec Ideal S128x128 .f32 := m ((c : Thread nD τ).loc main_arg3)
abbrev b2arg (c : Dev nD) : Vec Ideal S128 .f32 := m ((c : Thread nD τ).loc main_arg4)
abbrev w3arg (c : Dev nD) : Vec Ideal S128x5 .f32 := m ((c : Thread nD τ).loc main_arg5)
abbrev b3arg (c : Dev nD) : Vec Ideal S5 .f32 := m ((c : Thread nD τ).loc main_arg6)

abbrev trow (c : Dev nD) : Vec Ideal S1x102400 .f32 := V m c main_v1
abbrev w1arr (c : Dev nD) : Vec Ideal S128x1 .f32 := V m c main_v2
abbrev b1arr (c : Dev nD) : Vec Ideal S128x1 .f32 := V m c main_v3
abbrev w2arr (c : Dev nD) : Vec Ideal S128x128 .f32 := V m c main_v4
abbrev b2arr (c : Dev nD) : Vec Ideal S128x1 .f32 := V m c main_v5
abbrev w3arr (c : Dev nD) : Vec Ideal S5x128 .f32 := V m c main_v6
abbrev b3arr (c : Dev nD) : Vec Ideal S5x1 .f32 := V m c main_v7

/-- The row of points: the argument padded with the converted integer zero to 102400 entries, as one row. -/
theorem trow_eq (c : Dev nD) : trow m c = shapeCast S1x102400 (pad S102400 ![0] ![2400] ![0] (targ m c)
    (sitofp (F := Ideal) .f32 (constantI S_ 32 0#32)) pads_S100000_S102400_024000 h_S_) shapeCasts_S102400_S1x102400 := by
  show V m c main_v1 = _
  dsimp only [V, V0]
  simp only [hostOps0, hostOps0_1, hostOps0_2, List.flatten_cons, List.flatten_nil, List.append_nil, List.cons_append, List.nil_append]
  after_results
  rfl

/-- The first layer's weights as a column. -/
theorem w1arr_eq (c : Dev nD) : w1arr m c = shapeCast S128x1 (w1arg m c) shapeCasts_S1x128_S128x1 := by
  show V m c main_v2 = _
  dsimp only [V, V0]
  simp only [hostOps0, hostOps0_1, hostOps0_2, List.flatten_cons, List.flatten_nil, List.append_nil, List.cons_append, List.nil_append]
  after_results
  rfl

/-- The first layer's biases as a column. -/
theorem b1arr_eq (c : Dev nD) : b1arr m c = shapeCast S128x1 (b1arg m c) shapeCasts_S128_S128x1 := by
  show V m c main_v3 = _
  dsimp only [V, V0]
  simp only [hostOps0, hostOps0_1, hostOps0_2, List.flatten_cons, List.flatten_nil, List.append_nil, List.cons_append, List.nil_append]
  after_results
  rfl

/-- The second layer's weights, transposed. -/
theorem w2arr_eq (c : Dev nD) : w2arr m c = transpose S128x128 [1, 0] (w2arg m c) transposes_S128x128_S128x128_1_0 := by
  show V m c main_v4 = _
  dsimp only [V, V0]
  simp only [hostOps0, hostOps0_1, hostOps0_2, List.flatten_cons, List.flatten_nil, List.append_nil, List.cons_append, List.nil_append]
  after_results

/-- The second layer's biases as a column. -/
theorem b2arr_eq (c : Dev nD) : b2arr m c = shapeCast S128x1 (b2arg m c) shapeCasts_S128_S128x1 := by
  show V m c main_v5 = _
  dsimp only [V, V0]
  simp only [hostOps0, hostOps0_1, hostOps0_2, List.flatten_cons, List.flatten_nil, List.append_nil, List.cons_append, List.nil_append]
  after_results
  rfl

/-- The read-out's weights, transposed. -/
theorem w3arr_eq (c : Dev nD) : w3arr m c = transpose S5x128 [1, 0] (w3arg m c) transposes_S128x5_S5x128_1_0 := by
  show V m c main_v6 = _
  dsimp only [V, V0]
  simp only [hostOps0, hostOps0_1, hostOps0_2, List.flatten_cons, List.flatten_nil, List.append_nil, List.cons_append, List.nil_append]
  after_results

/-- The read-out's biases as a column. -/
theorem b3arr_eq (c : Dev nD) : b3arr m c = shapeCast S5x1 (b3arg m c) shapeCasts_S5_S5x1 := by
  show V m c main_v7 = _
  dsimp only [V, V0]
  simp only [hostOps0, hostOps0_1, hostOps0_2, List.flatten_cons, List.flatten_nil, List.append_nil, List.cons_append, List.nil_append]
  after_results
  rfl

/-! ## Where each window's block sits at step `t`

The row of points and the output move one block of 4096 lanes per step; every weight array is read whole at every
step. Decided over the 25 steps. -/

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)

/-- Lane `q` of step `t` is lane `4096·t + q` of the whole row. -/
theorem lane_lt (t : Fin cfg0.N) (q : Fin 4096) : t.val * 4096 + q.val < 102400 := by
  have := t.isLt; have := q.isLt; have : cfg0.N = 25 := N_0; omega

/-! ## The blocks the body is handed at step `t` -/

abbrev tblk (c : Dev nD) (t : Fin cfg0.N) : Vec Ideal S1x4096 .f32 := iblk m c 0 t
abbrev w1col (c : Dev nD) (t : Fin cfg0.N) : Vec Ideal S128x1 .f32 := iblk m c 1 t
abbrev b1col (c : Dev nD) (t : Fin cfg0.N) : Vec Ideal S128x1 .f32 := iblk m c 2 t
abbrev w2blk (c : Dev nD) (t : Fin cfg0.N) : Vec Ideal S128x128 .f32 := iblk m c 3 t
abbrev b2col (c : Dev nD) (t : Fin cfg0.N) : Vec Ideal S128x1 .f32 := iblk m c 4 t
abbrev w3blk (c : Dev nD) (t : Fin cfg0.N) : Vec Ideal S5x128 .f32 := iblk m c 5 t
abbrev b3col (c : Dev nD) (t : Fin cfg0.N) : Vec Ideal S5x1 .f32 := iblk m c 6 t

/-- The block of points at step `t`, lane `q`, is the row's lane `4096·t + q`. -/
theorem tblk_apply (c : Dev nD) (t : Fin cfg0.N) (q : Fin 4096) :
    tblk m c t (ix2 (0 : Fin 1) q) = trow m c (ix2 (0 : Fin 1) ⟨t.val * 4096 + q.val, lane_lt t q⟩) := by
  show V m c main_v1 (((cfg0.win 0).blk t).view.emb (ix2 (0 : Fin 1) q)) = V m c main_v1 _
  refine congrArg (V m c main_v1) (funext fun a => Fin.ext ?_)
  obtain ⟨e0, e1⟩ := idx0 t
  match a with
  | ⟨0, _⟩ => show win0_0.index t (0 : Fin 2) * 1 + 1 * 0 = 0; omega
  | ⟨1, _⟩ => show win0_0.index t (1 : Fin 2) * 4096 + 1 * q.val = t.val * 4096 + q.val; omega

/-! Every other input block is the whole of its array. -/

theorem w1col_eq (c : Dev nD) (t : Fin cfg0.N) : w1col m c t = w1arr m c := by
  funext y
  show V m c main_v2 (((cfg0.win 1).blk t).view.emb y) = V m c main_v2 y
  refine congrArg (V m c main_v2) (funext fun a => Fin.ext ?_)
  obtain ⟨e0, e1⟩ := idx1 t
  match a with
  | ⟨0, _⟩ => show win0_1.index t (0 : Fin 2) * 128 + 1 * (y 0).val = (y 0).val; omega
  | ⟨1, _⟩ => show win0_1.index t (1 : Fin 2) * 1 + 1 * (y 1).val = (y 1).val; omega

theorem b1col_eq (c : Dev nD) (t : Fin cfg0.N) : b1col m c t = b1arr m c := by
  funext y
  show V m c main_v3 (((cfg0.win 2).blk t).view.emb y) = V m c main_v3 y
  refine congrArg (V m c main_v3) (funext fun a => Fin.ext ?_)
  obtain ⟨e0, e1⟩ := idx2 t
  match a with
  | ⟨0, _⟩ => show win0_2.index t (0 : Fin 2) * 128 + 1 * (y 0).val = (y 0).val; omega
  | ⟨1, _⟩ => show win0_2.index t (1 : Fin 2) * 1 + 1 * (y 1).val = (y 1).val; omega

theorem w2blk_eq (c : Dev nD) (t : Fin cfg0.N) : w2blk m c t = w2arr m c := by
  funext y
  show V m c main_v4 (((cfg0.win 3).blk t).view.emb y) = V m c main_v4 y
  refine congrArg (V m c main_v4) (funext fun a => Fin.ext ?_)
  obtain ⟨e0, e1⟩ := idx3 t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem b2col_eq (c : Dev nD) (t : Fin cfg0.N) : b2col m c t = b2arr m c := by
  funext y
  show V m c main_v5 (((cfg0.win 4).blk t).view.emb y) = V m c main_v5 y
  refine congrArg (V m c main_v5) (funext fun a => Fin.ext ?_)
  obtain ⟨e0, e1⟩ := idx4 t
  match a with
  | ⟨0, _⟩ => show win0_4.index t (0 : Fin 2) * 128 + 1 * (y 0).val = (y 0).val; omega
  | ⟨1, _⟩ => show win0_4.index t (1 : Fin 2) * 1 + 1 * (y 1).val = (y 1).val; omega

theorem w3blk_eq (c : Dev nD) (t : Fin cfg0.N) : w3blk m c t = w3arr m c := by
  funext y
  show V m c main_v6 (((cfg0.win 5).blk t).view.emb y) = V m c main_v6 y
  refine congrArg (V m c main_v6) (funext fun a => Fin.ext ?_)
  obtain ⟨e0, e1⟩ := idx5 t
  match a with
  | ⟨0, _⟩ => show win0_5.index t (0 : Fin 2) * 5 + 1 * (y 0).val = (y 0).val; omega
  | ⟨1, _⟩ => show win0_5.index t (1 : Fin 2) * 128 + 1 * (y 1).val = (y 1).val; omega

theorem b3col_eq (c : Dev nD) (t : Fin cfg0.N) : b3col m c t = b3arr m c := by
  funext y
  show V m c main_v7 (((cfg0.win 6).blk t).view.emb y) = V m c main_v7 y
  refine congrArg (V m c main_v7) (funext fun a => Fin.ext ?_)
  obtain ⟨e0, e1⟩ := idx6 t
  match a with
  | ⟨0, _⟩ => show win0_6.index t (0 : Fin 2) * 5 + 1 * (y 0).val = (y 0).val; omega
  | ⟨1, _⟩ => show win0_6.index t (1 : Fin 2) * 1 + 1 * (y 1).val = (y 1).val; omega

/-! The weight blocks' entries, in the arguments' own coordinates. -/

theorem w1col_apply (c : Dev nD) (t : Fin cfg0.N) (k : Fin 128) :
    w1col m c t (ix2 k (0 : Fin 1)) = w1arg m c (ix2 (0 : Fin 1) k) := by
  rw [w1col_eq, w1arr_eq]; exact shapeCast_1a_a1_apply _ _ k 0
theorem b1col_apply (c : Dev nD) (t : Fin cfg0.N) (k : Fin 128) :
    b1col m c t (ix2 k (0 : Fin 1)) = b1arg m c (ix1 k) := by
  rw [b1col_eq, b1arr_eq]; exact shapeCast_a_a1_apply _ _ k 0
theorem w2blk_apply (c : Dev nD) (t : Fin cfg0.N) (k k' : Fin 128) :
    w2blk m c t (ix2 k k') = w2arg m c (ix2 k' k) := by
  rw [w2blk_eq, w2arr_eq]; exact transpose_ix2_apply _ _ k k'
theorem b2col_apply (c : Dev nD) (t : Fin cfg0.N) (k : Fin 128) :
    b2col m c t (ix2 k (0 : Fin 1)) = b2arg m c (ix1 k) := by
  rw [b2col_eq, b2arr_eq]; exact shapeCast_a_a1_apply _ _ k 0
theorem w3blk_apply (c : Dev nD) (t : Fin cfg0.N) (e : Fin 5) (k : Fin 128) :
    w3blk m c t (ix2 e k) = w3arg m c (ix2 k e) := by
  rw [w3blk_eq, w3arr_eq]; exact transpose_ix2_apply _ _ e k
theorem b3col_apply (c : Dev nD) (t : Fin cfg0.N) (e : Fin 5) :
    b3col m c t (ix2 e (0 : Fin 1)) = b3arg m c (ix1 e) := by
  rw [b3col_eq, b3arr_eq]; exact shapeCast_a_a1_apply _ _ e 0

/-! ## What step `t` writes back -/

theorem zero_offsets : (![0, 0] : Fin 2 → Nat) = fun _ => 0 := funext fun a => by fin_cases a <;> rfl

/-- The network along the padded row: entry `(e, p)` is the read-out's component `e` at the row's lane `p`. -/
def net (c : Dev nD) : Vec Ideal S5x102400 .f32 := fun i =>
  Cert.Mlp.output (w1arg m c) (b1arg m c) (w2arg m c) (b2arg m c) (w3arg m c) (b3arg m c)
    (trow m c (ix2 (0 : Fin 1) (i 1))) (i 0)

/-- Step `t` writes back block `t` of the network along the padded row. -/
theorem flushed_eq (c : Dev nD) (t : Fin cfg0.N) :
    (dats m 0 c).flushed 7 t = ((cfg0.win 7).blk t).view.read (Elt Ideal) (net m c) := by
  show (cfg0.win 7).cut (grid0.coords t) ((dats m 0 c).after 7 t) = _
  rw [after0_7]
  unfold out0_7
  rw [View.canon_unit_zero zero_offsets]
  simp only [View.ld_unit_zero (S := S1x4096) zero_offsets, View.ld_unit_zero (S := S128x1) zero_offsets,
    View.ld_unit_zero (S := S128x128) zero_offsets, View.ld_unit_zero (S := S5x128) zero_offsets,
    View.ld_unit_zero (S := S5x1) zero_offsets]
  refine funext fun (y : S5x4096.Idx) => ?_
  obtain ⟨e, q, rfl⟩ : ∃ (e : Fin 5) (q : Fin 4096), y = ix2 e q := ⟨y 0, y 1, eq_ix2 y⟩
  show k0_pay1 (F := Ideal) (tblk m c t) (w1col m c t) (b1col m c t) (w2blk m c t) (b2col m c t) (w3blk m c t) (b3col m c t) (ix2 e q)
    = net m c (((cfg0.win 7).blk t).view.emb (ix2 e q))
  refine (Cert.KernelIdeal.Point.pay_apply (tblk m c t) (w1col m c t) (b1col m c t) (w2blk m c t) (b2col m c t) (w3blk m c t) (b3col m c t) e q).trans ?_
  have hemb : ((cfg0.win 7).blk t).view.emb (ix2 e q) = (ix2 e ⟨t.val * 4096 + q.val, lane_lt t q⟩ : S5x102400.Idx) :=
    funext fun a => Fin.ext (by
      obtain ⟨e0, e1⟩ := idx7 t
      match a with
      | ⟨0, _⟩ => show win0_7.index t (0 : Fin 2) * 5 + 1 * e.val = e.val; omega
      | ⟨1, _⟩ => show win0_7.index t (1 : Fin 2) * 4096 + 1 * q.val = t.val * 4096 + q.val; omega)
  rw [hemb]
  simp only [tblk_apply, w1col_apply, b1col_apply, w2blk_apply, b2col_apply, w3blk_apply, b3col_apply]
  rfl

/-! ## The 25 blocks tile the output -/

theorem mem_blk (t : Fin cfg0.N) (i : S5x102400.Idx) :
    i ∈ ((cfg0.win 7).blk t).view.set ↔ ∀ a : Fin 2, win0_7.index t a * S5x4096.size a ≤ (i a).val ∧ (i a).val < win0_7.index t a * S5x4096.size a + S5x4096.size a := by
  show i ∈ ((View.whole main_v8).slice (win0_7.rect t)).set ↔ _
  rw [View.set_slice_whole, Rect.mem_set_unit]
  exact Iff.rfl

/-- Lane `p` is written at step `p / 4096`. -/
theorem cover (i : S5x102400.Idx) :
    ∃ t : Fin cfg0.N, (cfg0.win 7).flush t = true ∧ i ∈ ((cfg0.win 7).blk t).view.set := by
  have hi0 : (i 0).val < 5 := (i 0).isLt
  have hi1 : (i 1).val < 102400 := (i 1).isLt
  have hN : cfg0.N = 25 := N_0
  have ht : (i 1).val / 4096 < cfg0.N := by omega
  refine ⟨⟨(i 1).val / 4096, ht⟩, flush0_7 _, ?_⟩
  rw [mem_blk]
  obtain ⟨e0, e1⟩ := idx7 ⟨(i 1).val / 4096, ht⟩
  have e1' : win0_7.index ⟨(i 1).val / 4096, ht⟩ (1 : Fin 2) = (i 1).val / 4096 := e1
  intro a
  match a with
  | ⟨0, _⟩ => show win0_7.index ⟨(i 1).val / 4096, ht⟩ (0 : Fin 2) * 5 ≤ (i 0).val ∧ (i 0).val < win0_7.index ⟨(i 1).val / 4096, ht⟩ (0 : Fin 2) * 5 + 5; omega
  | ⟨1, _⟩ => show win0_7.index ⟨(i 1).val / 4096, ht⟩ (1 : Fin 2) * 4096 ≤ (i 1).val ∧ (i 1).val < win0_7.index ⟨(i 1).val / 4096, ht⟩ (1 : Fin 2) * 4096 + 4096; omega

/-- After the 25 steps the output array is the network along the padded row. -/
theorem final (c : Dev nD) : (dats m 0 c).arrAt 7 cfg0.N = net m c :=
  (dats m 0 c).arrAt_eq_of_cover 7 (net m c) (fun t _ => flushed_eq m c t) cover

/-! ## The slice and the transpose after the kernel -/

abbrev outArr (c : Dev nD) : Vec Ideal S5x102400 .f32 :=
  Pipeline.withArrays (cfgs 0).spec c (V0 m c) (fun w => (dats m 0 c).arrAt w (cfgs 0).N) (Proc.devRef .tc main_v8)
abbrev resArr (c : Dev nD) : Vec Ideal S100000x5 .f32 := Pipeline.afterTail₀ cfgs (dats m) 0 (V0 m) [hostOps1] c main_v10

theorem outArr_eq (c : Dev nD) : outArr m c = net m c :=
  (Pipeline.withArrays_arr spec0 launch0.win.arr_inj c _ _ 7).trans (final m c)

theorem resArr_eq (c : Dev nD) : resArr m c = transpose S100000x5 [1, 0]
    (extractStridedSlice S5x100000 ![0, 0] (outArr m c) slices_S5x102400_S5x100000_0_0) transposes_S5x100000_S100000x5_1_0 := by
  show Pipeline.afterTail₀ cfgs (dats m) 0 (V0 m) [hostOps1] c main_v10 = _
  unfold Pipeline.afterTail₀
  simp only [List.flatten_cons, List.flatten_nil, List.append_nil]
  after_results

/-- A lane below 100000 of the padded row is the argument's entry. -/
theorem trow_apply (c : Dev nD) (n : Fin 100000) (h : n.val < 102400) :
    trow m c (ix2 (0 : Fin 1) ⟨n.val, h⟩) = targ m c (ix1 n) := by
  rw [trow_eq]
  refine (shapeCast_a_1a_apply _ _ (0 : Fin 1) ⟨n.val, h⟩).trans ?_
  exact pad_apply_of_inside _ _ _ _ _ _ _ (ix1 ⟨n.val, h⟩) (ix1 n) (fun a => by
    match a with
    | ⟨0, _⟩ => show n.val = 0 + n.val * (0 + 1); omega)

/-- The result array: entry `(n, e)` is the read-out's component `e` at point `n`. -/
theorem resArr_apply (c : Dev nD) (n : Fin 100000) (e : Fin 5) :
    resArr m c (ix2 n e) = Cert.Mlp.output (w1arg m c) (b1arg m c) (w2arg m c) (b2arg m c) (w3arg m c) (b3arg m c)
      (targ m c (ix1 n)) e := by
  rw [resArr_eq]
  refine (transpose_ix2_apply _ _ n e).trans ?_
  refine (slice2_axis1_apply 0 _ _ e n ⟨n.val, by have := n.isLt; omega⟩ (by show n.val = 0 + n.val; omega)).trans ?_
  rw [outArr_eq]
  show Cert.Mlp.output _ _ _ _ _ _ (trow m c (ix2 (0 : Fin 1) ⟨n.val, _⟩)) e = _
  rw [trow_apply]

theorem resArr_fun (c : Dev nD) :
    resArr m c = fun i => Cert.Mlp.output (w1arg m c) (b1arg m c) (w2arg m c) (b2arg m c) (w3arg m c) (b3arg m c)
      (targ m c (ix1 (i 0))) (i 1) := by
  funext i
  obtain ⟨n, e, rfl⟩ : ∃ (n : Fin 100000) (e : Fin 5), i = ix2 n e := ⟨i 0, i 1, eq_ix2 i⟩
  exact resArr_apply m c n e

/-! ## The run -/

/-- Every fair execution of the kernel program ends with the result array holding the network's read-out at each point
    and the arguments as they were. -/
theorem run : θ_run defs (onTc (τ := τ) (main (F := Ideal))) ⟨m, fun _ => 0, ρ⟩ fun r => ∀ c : Dev nD,
      r.2.mem ((c.tc : Thread nD τ).loc main_v10) = (fun i => Cert.Mlp.output (w1arg m c) (b1arg m c) (w2arg m c) (b2arg m c) (w3arg m c) (b3arg m c) (targ m c (ix1 (i 0))) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v10 (Pipeline.mem_restRefs_of main_v10 (by decide) (by decide))).trans (resArr_fun m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference program's result, entry by entry, is the network of `Mlp.lean` at that entry's point.

  The reference lays the points along the rows: it multiplies the column of points by the first layer's row of
  weights (a product contracted over an axis of extent one, so a sum of one term), adds the bias row, takes
  `max · 0`, and repeats with the two weight matrices on the right. Entry `(n, e)` of its result is therefore the
  read-out's component `e` at point `n`, each product written with the activation before the weight.
-/
import proofs.«173750_g64828236366229_cont_9to1_m_1379_5_alg».proof.Proof.Gen.ReferenceIdeal.Read
import proofs.«173750_g64828236366229_cont_9to1_m_1379_5_alg».proof.Proof.Mlp

noncomputable section

namespace Cert.ReferenceIdeal.RefValue

open Cert.ReferenceIdeal Cert.ReferenceIdeal.Read Idealize.ShloMosaic Idealize.ShloMosaic.ValueIdx

variable (x0 : (⟨S100000, .f32⟩ : BufTy).Contents (Elt Ideal)) (x1 : (⟨S1x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x5, .f32⟩ : BufTy).Contents (Elt Ideal))
  (x6 : (⟨S5, .f32⟩ : BufTy).Contents (Elt Ideal))

/-- After the first rectifier, entry `(n, j)` is the first hidden layer's unit `j` at point `n`. -/
theorem first_layer (n : Fin 100000) (j : Fin 128) :
    val_main_v5 (F := Ideal) x0 x1 x2 (ix2 n j) = Cert.Mlp.hidden1 x1 x2 (x0 (ix1 n)) j := by
  rw [val_main_v5_apply, val_main_v4_apply, val_main_v1_apply, val_main_v3_apply, val_main_v2_apply,
    val_main_call0_v0_apply, val_main_call0_cst_apply, Fin.sum_univ_one, val_main_v0_apply]
  have h0 : idx_main_v0 (lidx_main_v1 (ix2 n j) 0) = ix1 n := funext fun a => by match a with | ⟨0, _⟩ => rfl
  have h1 : ridx_main_v1 (ix2 n j) 0 = ix2 (0 : Fin 1) j := funext fun a => by
    match a with | ⟨0, _⟩ => rfl | ⟨1, _⟩ => rfl
  have h2 : idx_main_v2 (idx_main_v3 (ix2 n j)) = ix1 j := funext fun a => by match a with | ⟨0, _⟩ => rfl
  rw [h0, h1, h2]
  simp only [Ideal.maximumf_def, Ideal.addf_def, Ideal.ofBits_def, Ideal.ofBits_zero_f32]
  exact Cert.Mlp.hidden1_comm x1 x2 (x0 (ix1 n)) j

/-- After the second rectifier, entry `(n, j)` is the second hidden layer's unit `j` at point `n`. -/
theorem second_layer (n : Fin 100000) (j : Fin 128) :
    val_main_v10 (F := Ideal) x0 x1 x2 x3 x4 (ix2 n j) = Cert.Mlp.hidden2 x1 x2 x3 x4 (x0 (ix1 n)) j := by
  rw [val_main_v10_apply, val_main_v9_apply, val_main_v6_apply, val_main_v8_apply, val_main_v7_apply,
    val_main_call1_v0_apply, val_main_call1_cst_apply]
  have hl : ∀ k : Fin 128, lidx_main_v6 (ix2 n j) k = ix2 n k := fun k => funext fun a => by
    match a with | ⟨0, _⟩ => rfl | ⟨1, _⟩ => rfl
  have hr : ∀ k : Fin 128, ridx_main_v6 (ix2 n j) k = ix2 k j := fun k => funext fun a => by
    match a with | ⟨0, _⟩ => rfl | ⟨1, _⟩ => rfl
  have hb : idx_main_v7 (idx_main_v8 (ix2 n j)) = ix1 j := funext fun a => by match a with | ⟨0, _⟩ => rfl
  simp only [hl, hr, hb, first_layer, Ideal.maximumf_def, Ideal.addf_def, Ideal.ofBits_def, Ideal.ofBits_zero_f32]
  exact Cert.Mlp.hidden2_comm x1 x2 x3 x4 (x0 (ix1 n)) j

/-- Entry `(n, e)` of the result is the read-out's component `e` at point `n`. -/
theorem read_out (n : Fin 100000) (e : Fin 5) :
    val_main_v14 (F := Ideal) x0 x1 x2 x3 x4 x5 x6 (ix2 n e) = Cert.Mlp.output x1 x2 x3 x4 x5 x6 (x0 (ix1 n)) e := by
  rw [val_main_v14_apply, val_main_v11_apply, val_main_v13_apply, val_main_v12_apply]
  have hl : ∀ k : Fin 128, lidx_main_v11 (ix2 n e) k = ix2 n k := fun k => funext fun a => by
    match a with | ⟨0, _⟩ => rfl | ⟨1, _⟩ => rfl
  have hr : ∀ k : Fin 128, ridx_main_v11 (ix2 n e) k = ix2 k e := fun k => funext fun a => by
    match a with | ⟨0, _⟩ => rfl | ⟨1, _⟩ => rfl
  have hb : idx_main_v12 (idx_main_v13 (ix2 n e)) = ix1 e := funext fun a => by match a with | ⟨0, _⟩ => rfl
  simp only [hl, hr, hb, second_layer, Ideal.addf_def]
  exact Cert.Mlp.output_comm x1 x2 x3 x4 x5 x6 (x0 (ix1 n)) e

/-- The whole result array as one function of the arguments. -/
theorem result_eq :
    val_main_v14 (F := Ideal) x0 x1 x2 x3 x4 x5 x6
      = fun i => Cert.Mlp.output x1 x2 x3 x4 x5 x6 (x0 (ix1 (i 0))) (i 1) := by
  funext i
  obtain ⟨n, e, rfl⟩ : ∃ (n : Fin 100000) (e : Fin 5), i = ix2 n e := ⟨i 0, i 1, eq_ix2 i⟩
  exact read_out x0 x1 x2 x3 x4 x5 x6 n e

end Cert.ReferenceIdeal.RefValue

end
-- ==== Proof.lean ====
/-
  A three-layer network applied to each of 100000 scalar points — 1 → 128 → 128 → 5, with `max · 0` after the two
  hidden layers — computed two ways, agrees on the extended reals.

  The reference keeps the points along the rows and multiplies by each weight matrix on the right. The kernel pads
  the points to 102400, keeps them along the lanes, multiplies by the transposed weight matrices on the left in 25
  steps of 4096 lanes, and transposes the first 100000 lanes of the result back. At every entry `(n, e)` both are the
  same nested sum over the 128 units of each hidden layer (`Proof/Mlp.lean`); the two spellings differ only in the
  order of the two factors of each product, and the product of extended reals commutes. No distributive law is used,
  so the finiteness of the inputs is never needed.

  `Proof/RefValue.lean` reads the reference's result at an entry; `Proof/Payload.lean` reads one step's stored
  block at an entry; `Proof/KernelValue.lean` assembles the steps' blocks into the output array and follows it
  through the final slice and transpose.
-/
import proofs.«173750_g64828236366229_cont_9to1_m_1379_5_alg».proof.Defs
import proofs.«173750_g64828236366229_cont_9to1_m_1379_5_alg».proof.Proof.Gen.Kernel
import proofs.«173750_g64828236366229_cont_9to1_m_1379_5_alg».proof.Proof.Gen.Kernel.Skeleton
import proofs.«173750_g64828236366229_cont_9to1_m_1379_5_alg».proof.Proof.Gen.Kernel.Launch
import proofs.«173750_g64828236366229_cont_9to1_m_1379_5_alg».proof.Proof.Gen.Kernel.Points
import proofs.«173750_g64828236366229_cont_9to1_m_1379_5_alg».proof.Proof.Gen.Kernel.Frame
import proofs.«173750_g64828236366229_cont_9to1_m_1379_5_alg».proof.Proof.Gen.KernelIdeal
import proofs.«173750_g64828236366229_cont_9to1_m_1379_5_alg».proof.Proof.Gen.KernelIdeal.Skeleton
import proofs.«173750_g64828236366229_cont_9to1_m_1379_5_alg».proof.Proof.Gen.KernelIdeal.Launch
import proofs.«173750_g64828236366229_cont_9to1_m_1379_5_alg».proof.Proof.Gen.KernelIdeal.Points
import proofs.«173750_g64828236366229_cont_9to1_m_1379_5_alg».proof.Proof.Gen.KernelIdeal.Frame
import proofs.«173750_g64828236366229_cont_9to1_m_1379_5_alg».proof.Proof.Gen.ReferenceIdeal
import proofs.«173750_g64828236366229_cont_9to1_m_1379_5_alg».proof.Proof.Gen.Pre_finite_inputs
import proofs.«173750_g64828236366229_cont_9to1_m_1379_5_alg».proof.Proof.Gen.ReferenceIdeal.Run
import proofs.«173750_g64828236366229_cont_9to1_m_1379_5_alg».proof.Proof.Gen.ReferenceIdeal.Read
import proofs.«173750_g64828236366229_cont_9to1_m_1379_5_alg».proof.Proof.KernelValue
import proofs.«173750_g64828236366229_cont_9to1_m_1379_5_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array holding, at entry `(n, e)`, the read-out's component `e` at point `n` of
    arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
